-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 102
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x128, .f32⟩
  | .hbm, ⟨87, _⟩ => ⟨S850000x1, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S1x64, .f32⟩
  | .hbm, ⟨101, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Net.lean ====
/-
  The graph network both programs compute, as ONE function of its eight inputs that is parametric in its three linear
  maps.

  From the edge list e (two rows of 800000 node numbers) come the source and destination vectors with the 50000 self
  loops appended, a node's degree as the number of edges arriving at it, d = degree^(-1/2) where the degree is positive
  and 0 elsewhere, and the edge weight n = d[src] · d[dst] (an index below zero counts from the end). A convolution of
  node features h is, row by row, the sum over the edges arriving at the node of n · h[src], plus a bias row, cut off
  below at zero. The network is  L₂ (conv (L₁ (conv (L₀ x W₁) b₁) W₂) b₂) W_f b_f.

  The idealized kernel and the idealized reference differ only in how L₀, L₁, L₂ are computed, so each program's result
  is this function at that program's own three maps, and the two results are equal as soon as the maps are.
-/
import proofs.«147254_j48430051230177_1_alg».proof.KernelIdeal
import proofs.«147254_j48430051230177_1_alg».proof.Proof.Gen.KernelIdeal

noncomputable section

open Idealize.ShloMosaic Idealize.ShloMosaic.TcCoe Idealize.SL.Sem

namespace Cert.KernelIdeal.Net

open Cert.KernelIdeal Cert.KernelIdeal.Gen

variable {F : FTy → Type} [FloatOps F]

/-- The edges' sources followed by the self loops 0 … 49999. -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations followed by the self loops 0 … 49999. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number below zero counts from the end: 50000 is added to it. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- A node's degree: ones added up over the edges arriving at it. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- degree^(-1/2) where the degree is positive, 0 elsewhere. -/
def invSqrtDegree (d : (⟨S850000, .i32⟩ : BufTy).Contents (Elt F)) : (⟨S50000, .f32⟩ : BufTy).Contents (Elt F) :=
  select (cmpf (F := F) .ogt (degree d) (broadcastInDim S50000 ![] bcast_S_S50000 (constant S_ .f32 0x00000000#32))) (Host.rsqrt (degree d)) (broadcastInDim S50000 ![] bcast_S_S50000 (id (constant S_ .f32 0x00000000#32)))

/-- The weight of each edge: the two end nodes' degree^(-1/2) multiplied. -/
def edgeWeight (s d : (⟨S850000, .i32⟩ : BufTy).Contents (Elt F)) : (⟨S850000, .f32⟩ : BufTy).Contents (Elt F) :=
  mulf (Host.gather gather_S50000_S850000x1_S850000_n_0_n_n_0_1_1 (invSqrtDegree d) (broadcastInDim S850000x1 ![0] bcast_S850000_S850000x1_0 (wrap s))) (Host.gather gather_S50000_S850000x1_S850000_n_0_n_n_0_1_1 (invSqrtDegree d) (broadcastInDim S850000x1 ![0] bcast_S850000_S850000x1_0 (wrap d)))

/-- One convolution after its linear map: every node sums weight · h[source] over the edges arriving at it, the bias
    row is added, and the result is cut off below at zero. -/
def conv (h : (⟨S50000x128, .f32⟩ : BufTy).Contents (Elt F)) (s d : (⟨S850000, .i32⟩ : BufTy).Contents (Elt F))
    (n : (⟨S850000, .f32⟩ : BufTy).Contents (Elt F)) (b : (⟨S128, .f32⟩ : BufTy).Contents (Elt F)) : (⟨S50000x128, .f32⟩ : BufTy).Contents (Elt F) :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrap s))) (broadcastInDim S850000x128 ![0, 1] bcast_S850000x1_S850000x128_0_1 (broadcastInDim S850000x1 ![0] bcast_S850000_S850000x1_0 n)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- 128 zeros laid out as a 1 × 128 row: the bias row the kernel hands its first two linear layers. -/
def zeroRow : (⟨S1x128, .f32⟩ : BufTy).Contents (Elt F) :=
  shapeCast S1x128 (broadcastInDim S128 ![] bcast_S_S128 (constant S_ .f32 0x00000000#32)) shapeCasts_S128_S1x128

/-- A bias of 64 entries laid out as a 1 × 64 row: what the kernel hands its last linear layer. -/
def biasRow (b : (⟨S64, .f32⟩ : BufTy).Contents (Elt F)) : (⟨S1x64, .f32⟩ : BufTy).Contents (Elt F) :=
  shapeCast S1x64 b shapeCasts_S64_S1x64

/-- The whole network at three linear maps L₀, L₁, L₂. -/
def net
    (L0 : (⟨S50000x256, .f32⟩ : BufTy).Contents (Elt F) → (⟨S256x128, .f32⟩ : BufTy).Contents (Elt F) → (⟨S50000x128, .f32⟩ : BufTy).Contents (Elt F))
    (L1 : (⟨S50000x128, .f32⟩ : BufTy).Contents (Elt F) → (⟨S128x128, .f32⟩ : BufTy).Contents (Elt F) → (⟨S50000x128, .f32⟩ : BufTy).Contents (Elt F))
    (L2 : (⟨S50000x128, .f32⟩ : BufTy).Contents (Elt F) → (⟨S128x64, .f32⟩ : BufTy).Contents (Elt F) → (⟨S64, .f32⟩ : BufTy).Contents (Elt F) → (⟨S50000x64, .f32⟩ : BufTy).Contents (Elt F))
    (x : (⟨S50000x256, .f32⟩ : BufTy).Contents (Elt F)) (e : (⟨S2x800000, .i32⟩ : BufTy).Contents (Elt F))
    (W1 : (⟨S256x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wf : (⟨S128x64, .f32⟩ : BufTy).Contents (Elt F)) (bf : (⟨S64, .f32⟩ : BufTy).Contents (Elt F)) : (⟨S50000x64, .f32⟩ : BufTy).Contents (Elt F) :=
  L2 (conv (L1 (conv (L0 x W1) (src e) (dst e) (edgeWeight (src e) (dst e)) b1) W2) (src e) (dst e) (edgeWeight (src e) (dst e)) b2) Wf bf

end Cert.KernelIdeal.Net

end
-- ==== Proof.Layer0.lean ====
/-
  The first linear layer of the kernel, as a function of whole arrays.

  The grid has ten points; point t stages rows 5000·t … 5000·t + 4999 of the left factor A, the whole right factor W
  and the whole bias row b, and writes back the same rows of the result. In the extended reals a change of float format
  is the identity and a product accumulated into zero is the plain sum, so the block's entry (r, j) is
  Σ_k A[5000·t + r, k] · W[k, j] + b[0, j]: every point writes its rows of ONE function of (A, W, b), the blocks tile
  the result's 50000 rows, and the result array ends holding that function.
-/
import proofs.«147254_j48430051230177_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer0

open Cert.KernelIdeal Cert.KernelIdeal.Gen

/-! ## The layer on whole arrays -/

/-- Entry (row of i, k) of the left factor. -/
abbrev rowOf (i : S50000x128.Idx) (k : Fin 256) : S50000x256.Idx := fun a => match a with
  | ⟨0, _⟩ => ⟨(i 0).val, (i 0).isLt⟩
  | ⟨1, _⟩ => ⟨k.val, k.isLt⟩
/-- Entry (k, column of i) of the right factor. -/
abbrev colOf (i : S50000x128.Idx) (k : Fin 256) : S256x128.Idx := fun a => match a with
  | ⟨0, _⟩ => ⟨k.val, k.isLt⟩
  | ⟨1, _⟩ => ⟨(i 1).val, (i 1).isLt⟩
/-- Entry (0, column of i) of the bias row. -/
abbrev biasOf (i : S50000x128.Idx) : S1x128.Idx := fun a => match a with
  | ⟨0, _⟩ => ⟨0, Nat.one_pos⟩
  | ⟨1, _⟩ => ⟨(i 1).val, (i 1).isLt⟩

/-- A · W + b, the bias row added to every row: entry i is Σ_k A[i₀, k] · W[k, i₁] + b[0, i₁]. -/
def layer (A : (⟨S50000x256, .f32⟩ : BufTy).Contents (Elt Ideal)) (W : (⟨S256x128, .f32⟩ : BufTy).Contents (Elt Ideal))
    (b : (⟨S1x128, .f32⟩ : BufTy).Contents (Elt Ideal)) : (⟨S50000x128, .f32⟩ : BufTy).Contents (Elt Ideal) :=
  fun i => (∑ k : Fin 256, A (rowOf i k) * W (colOf i k)) + b (biasOf i)

/-! ## One block of the body's result, entry by entry -/

abbrev rowB (y : S5000x128.Idx) (k : Fin 256) : S5000x256.Idx := fun a => match a with
  | ⟨0, _⟩ => ⟨(y 0).val, (y 0).isLt⟩
  | ⟨1, _⟩ => ⟨k.val, k.isLt⟩
abbrev colB (y : S5000x128.Idx) (k : Fin 256) : S256x128.Idx := fun a => match a with
  | ⟨0, _⟩ => ⟨k.val, k.isLt⟩
  | ⟨1, _⟩ => ⟨(y 1).val, (y 1).isLt⟩
abbrev biasB (y : S5000x128.Idx) : S1x128.Idx := fun a => match a with
  | ⟨0, _⟩ => ⟨0, Nat.one_pos⟩
  | ⟨1, _⟩ => ⟨(y 1).val, (y 1).isLt⟩

/- The contraction's operand indices, coordinate by coordinate: the left operand is read at (row, k), the right at
   (k, column). -/
theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's stored value at entry y of the block: the row of the staged left factor against the column of the
    right factor, summed over the 256 contracted entries, plus the bias row's entry of that column. -/
theorem pay_apply (x0 : Vec Ideal S5000x256 .f32) (x1 : Vec Ideal S256x128 .f32) (x2 : Vec Ideal S1x128 .f32) (y : S5000x128.Idx) :
    k0_pay1 (F := Ideal) x0 x1 x2 y = (∑ k : Fin 256, x0 (rowB y k) * x1 (colB y k)) + x2 (biasB y) := by
  unfold k0_pay1
  simp only [shapeCast_self]
  refine (ValueIdx.addf_apply _ _ y).trans ?_
  congr 1
  · simp only [matmul]
    rw [Ideal.matmul_constant_zero_apply, ← Equiv.sum_comp (ValueIdx.contrEquiv1 dot_S5000x256_S256x128_S5000x128_1_0_0_1_n_n 256 rfl rfl).symm]
    refine Finset.sum_congr rfl fun k _ => ?_
    have hk := ValueIdx.contrEquiv1_symm_val dot_S5000x256_S256x128_S5000x128_1_0_0_1_n_n 256 rfl rfl k
    have el : dot_S5000x256_S256x128_S5000x128_1_0_0_1_n_n.lhsIdx y ((ValueIdx.contrEquiv1 dot_S5000x256_S256x128_S5000x128_1_0_0_1_n_n 256 rfl rfl).symm k) = rowB y k := funext fun a => Fin.ext (by
      match a with
      | ⟨0, _⟩ => exact lhs_0 _ _
      | ⟨1, _⟩ => exact (lhs_1 _ _).trans hk)
    have er : dot_S5000x256_S256x128_S5000x128_1_0_0_1_n_n.rhsIdx y ((ValueIdx.contrEquiv1 dot_S5000x256_S256x128_S5000x128_1_0_0_1_n_n 256 rfl rfl).symm k) = colB y k := funext fun a => Fin.ext (by
      match a with
      | ⟨0, _⟩ => exact (rhs_0 _ _).trans hk
      | ⟨1, _⟩ => exact rhs_1 _ _)
    rw [el, er]
    rfl
  · exact broadcastTo_apply x2 broadcasts_S1x128_S5000x128 y (biasB y) (fun a => match a with
      | ⟨0, _⟩ => rfl
      | ⟨1, _⟩ => rfl)

/-! ## The blocks the body reads, as entries of the arrays the region finds -/

variable (V : (c : Dev nD) → (b : Ref sig .tc) → Buf (Elt Ideal) ((c : Thread nD τ).loc b))

theorem hz : (![0, 0] : Fin 2 → Nat) = fun _ => 0 := funext fun a => by fin_cases a <;> rfl

/-- Point t's block of the left factor is rows 5000·t … 5000·t + 4999 of the array. -/
theorem blk_left (c : Dev nD) (t : Fin cfg0.N) (y : S5000x256.Idx) (i : S50000x256.Idx)
    (h0 : (i 0).val = 5000 * t.val + (y 0).val) (h1 : (i 1).val = (y 1).val) :
    (iblk0 V c 0 t : Vec Ideal S5000x256 .f32) y = (V c main_arg0 : S50000x256.Idx → Elt Ideal .f32) i := by
  have hi : win0_0.index t 0 = t.val ∧ win0_0.index t 1 = 0 := by
    rcases fin_N0 t with rfl | rfl | rfl | rfl | rfl | rfl | rfl | rfl | rfl | rfl <;> decide
  unfold iblk0
  rw [View.read_apply]
  show V c main_arg0 _ = V c main_arg0 _
  congr 1
  funext a
  apply Fin.ext
  match a with
  | ⟨0, _⟩ => show win0_0.index t 0 * 5000 + 1 * (y 0).val = (i 0).val; rw [hi.1, h0]; omega
  | ⟨1, _⟩ => show win0_0.index t 1 * 256 + 1 * (y 1).val = (i 1).val; rw [hi.2, h1]; omega

/-- The right factor is staged whole at every point. -/
theorem blk_right (c : Dev nD) (t : Fin cfg0.N) (y : S256x128.Idx) :
    (iblk0 V c 1 t : Vec Ideal S256x128 .f32) y = (V c main_arg2 : S256x128.Idx → Elt Ideal .f32) y := by
  have hi : win0_1.index t 0 = 0 ∧ win0_1.index t 1 = 0 := by
    rcases fin_N0 t with rfl | rfl | rfl | rfl | rfl | rfl | rfl | rfl | rfl | rfl <;> decide
  unfold iblk0
  rw [View.read_apply]
  show V c main_arg2 _ = V c main_arg2 _
  congr 1
  funext a
  apply Fin.ext
  match a with
  | ⟨0, _⟩ => show win0_1.index t 0 * 256 + 1 * (y 0).val = (y 0).val; rw [hi.1]; omega
  | ⟨1, _⟩ => show win0_1.index t 1 * 128 + 1 * (y 1).val = (y 1).val; rw [hi.2]; omega

/-- The bias row is staged whole at every point. -/
theorem blk_bias (c : Dev nD) (t : Fin cfg0.N) (y : S1x128.Idx) :
    (iblk0 V c 2 t : Vec Ideal S1x128 .f32) y = (V c main_v31 : S1x128.Idx → Elt Ideal .f32) y := by
  have hi : win0_2.index t 0 = 0 ∧ win0_2.index t 1 = 0 := by
    rcases fin_N0 t with rfl | rfl | rfl | rfl | rfl | rfl | rfl | rfl | rfl | rfl <;> decide
  unfold iblk0
  rw [View.read_apply]
  show V c main_v31 _ = V c main_v31 _
  congr 1
  funext a
  apply Fin.ext
  match a with
  | ⟨0, _⟩ => show win0_2.index t 0 * 1 + 1 * (y 0).val = (y 0).val; rw [hi.1]; omega
  | ⟨1, _⟩ => show win0_2.index t 1 * 128 + 1 * (y 1).val = (y 1).val; rw [hi.2]; omega

/-! ## What a point writes back, and the array after the last point -/

/-- The result window's block index at point t is (t, 0). -/
theorem out_index (t : Fin cfg0.N) : win0_3.index t 0 = t.val ∧ win0_3.index t 1 = 0 := by
  rcases fin_N0 t with rfl | rfl | rfl | rfl | rfl | rfl | rfl | rfl | rfl | rfl <;> decide

/-- Entry j of point t's block against entry i of the array, where i is j moved down 5000·t rows. -/
theorem point_eq (c : Dev nD) (t : Fin cfg0.N) (j : S5000x128.Idx) (i : S50000x128.Idx)
    (e0 : (i 0).val = 5000 * t.val + (j 0).val) (e1 : (i 1).val = (j 1).val) :
    k0_pay1 (F := Ideal) (iblk0 V c 0 t) (iblk0 V c 1 t) (iblk0 V c 2 t) j = layer (V c main_arg0) (V c main_arg2) (V c main_v31) i := by
  refine (pay_apply _ _ _ j).trans ?_
  unfold layer
  have hcol : ∀ k : Fin 256, colB j k = colOf i k := fun k => funext fun a => Fin.ext (by
    match a with
    | ⟨0, _⟩ => rfl
    | ⟨1, _⟩ => exact e1.symm)
  have hbias : biasB j = biasOf i := funext fun a => Fin.ext (by
    match a with
    | ⟨0, _⟩ => rfl
    | ⟨1, _⟩ => exact e1.symm)
  refine congrArg₂ (· + ·) (Finset.sum_congr rfl fun k _ => ?_) ((blk_bias V c t (biasB j)).trans (congrArg _ hbias))
  exact congrArg₂ (· * ·) (blk_left V c t (rowB j k) (rowOf i k) e0 rfl) ((blk_right V c t (colB j k)).trans (congrArg _ (hcol k)))

/-- What point t writes back is its block of `layer` of the arrays the region finds. -/
theorem flushed_eq (c : Dev nD) (t : Fin cfg0.N) :
    (dat0 V c).flushed 3 t = ((cfg0.win 3).blk t).view.read (Elt Ideal) (layer (V c main_arg0) (V c main_arg2) (V c main_v31)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  funext j
  show k0_pay1 (F := Ideal) (iblk0 V c 0 t) (iblk0 V c 1 t) (iblk0 V c 2 t) j = layer (V c main_arg0) (V c main_arg2) (V c main_v31) (((cfg0.win 3).blk t).view.emb j)
  refine point_eq V c t j _ ?_ ?_
  · show win0_3.index t 0 * 5000 + 1 * (j 0).val = _
    rw [(out_index t).1]; omega
  · show win0_3.index t 1 * 128 + 1 * (j 1).val = _
    rw [(out_index t).2]; omega

/-- An index of the result array lies in point t's block iff each coordinate lies in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- Every row of the result lies in the block of the point numbered row / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk]
  obtain ⟨q0, q1⟩ := out_index ⟨(i 0).val / 5000, by rw [hN]; omega⟩
  intro a
  match a with
  | ⟨0, _⟩ =>
    show win0_3.index _ 0 * 5000 ≤ (i 0).val ∧ (i 0).val < win0_3.index _ 0 * 5000 + 5000
    rw [q0]; show (i 0).val / 5000 * 5000 ≤ (i 0).val ∧ (i 0).val < (i 0).val / 5000 * 5000 + 5000; omega
  | ⟨1, _⟩ =>
    show win0_3.index _ 1 * 128 ≤ (i 1).val ∧ (i 1).val < win0_3.index _ 1 * 128 + 128
    rw [q1]; omega

/-- THE RESULT ARRAY after the last point: `layer` of the three arrays as the region found them. -/
theorem final (c : Dev nD) : (dat0 V c).arrAt 3 cfg0.N = layer (V c main_arg0) (V c main_arg2) (V c main_v31) :=
  (dat0 V c).arrAt_eq_of_cover 3 _ (fun t _ => flushed_eq V c t) cover

end Cert.KernelIdeal.Layer0

end
-- ==== Proof.Layer1.lean ====
/-
  The second linear layer of the kernel, as a function of whole arrays.

  The grid has ten points; point t stages rows 5000·t … 5000·t + 4999 of the left factor A, the whole right factor W
  and the whole bias row b, and writes back the same rows of the result. In the extended reals a change of float format
  is the identity and a product accumulated into zero is the plain sum, so the block's entry (r, j) is
  Σ_k A[5000·t + r, k] · W[k, j] + b[0, j]: every point writes its rows of ONE function of (A, W, b), the blocks tile
  the result's 50000 rows, and the result array ends holding that function.
-/
import proofs.«147254_j48430051230177_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen

/-! ## The layer on whole arrays -/

/-- Entry (row of i, k) of the left factor. -/
abbrev rowOf (i : S50000x128.Idx) (k : Fin 128) : S50000x128.Idx := fun a => match a with
  | ⟨0, _⟩ => ⟨(i 0).val, (i 0).isLt⟩
  | ⟨1, _⟩ => ⟨k.val, k.isLt⟩
/-- Entry (k, column of i) of the right factor. -/
abbrev colOf (i : S50000x128.Idx) (k : Fin 128) : S128x128.Idx := fun a => match a with
  | ⟨0, _⟩ => ⟨k.val, k.isLt⟩
  | ⟨1, _⟩ => ⟨(i 1).val, (i 1).isLt⟩
/-- Entry (0, column of i) of the bias row. -/
abbrev biasOf (i : S50000x128.Idx) : S1x128.Idx := fun a => match a with
  | ⟨0, _⟩ => ⟨0, Nat.one_pos⟩
  | ⟨1, _⟩ => ⟨(i 1).val, (i 1).isLt⟩

/-- A · W + b, the bias row added to every row: entry i is Σ_k A[i₀, k] · W[k, i₁] + b[0, i₁]. -/
def layer (A : (⟨S50000x128, .f32⟩ : BufTy).Contents (Elt Ideal)) (W : (⟨S128x128, .f32⟩ : BufTy).Contents (Elt Ideal))
    (b : (⟨S1x128, .f32⟩ : BufTy).Contents (Elt Ideal)) : (⟨S50000x128, .f32⟩ : BufTy).Contents (Elt Ideal) :=
  fun i => (∑ k : Fin 128, A (rowOf i k) * W (colOf i k)) + b (biasOf i)

/-! ## One block of the body's result, entry by entry -/

abbrev rowB (y : S5000x128.Idx) (k : Fin 128) : S5000x128.Idx := fun a => match a with
  | ⟨0, _⟩ => ⟨(y 0).val, (y 0).isLt⟩
  | ⟨1, _⟩ => ⟨k.val, k.isLt⟩
abbrev colB (y : S5000x128.Idx) (k : Fin 128) : S128x128.Idx := fun a => match a with
  | ⟨0, _⟩ => ⟨k.val, k.isLt⟩
  | ⟨1, _⟩ => ⟨(y 1).val, (y 1).isLt⟩
abbrev biasB (y : S5000x128.Idx) : S1x128.Idx := fun a => match a with
  | ⟨0, _⟩ => ⟨0, Nat.one_pos⟩
  | ⟨1, _⟩ => ⟨(y 1).val, (y 1).isLt⟩

/- The contraction's operand indices, coordinate by coordinate: the left operand is read at (row, k), the right at
   (k, column). -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry y of the block: the row of the staged left factor against the column of the
    right factor, summed over the 128 contracted entries, plus the bias row's entry of that column. -/
theorem pay_apply (x0 : Vec Ideal S5000x128 .f32) (x1 : Vec Ideal S128x128 .f32) (x2 : Vec Ideal S1x128 .f32) (y : S5000x128.Idx) :
    k1_pay1 (F := Ideal) x0 x1 x2 y = (∑ k : Fin 128, x0 (rowB y k) * x1 (colB y k)) + x2 (biasB y) := by
  unfold k1_pay1
  simp only [shapeCast_self]
  refine (ValueIdx.addf_apply _ _ y).trans ?_
  congr 1
  · simp only [matmul]
    rw [Ideal.matmul_constant_zero_apply, ← Equiv.sum_comp (ValueIdx.contrEquiv1 dot_S5000x128_S128x128_S5000x128_1_0_0_1_n_n 128 rfl rfl).symm]
    refine Finset.sum_congr rfl fun k _ => ?_
    have hk := ValueIdx.contrEquiv1_symm_val dot_S5000x128_S128x128_S5000x128_1_0_0_1_n_n 128 rfl rfl k
    have el : dot_S5000x128_S128x128_S5000x128_1_0_0_1_n_n.lhsIdx y ((ValueIdx.contrEquiv1 dot_S5000x128_S128x128_S5000x128_1_0_0_1_n_n 128 rfl rfl).symm k) = rowB y k := funext fun a => Fin.ext (by
      match a with
      | ⟨0, _⟩ => exact lhs_0 _ _
      | ⟨1, _⟩ => exact (lhs_1 _ _).trans hk)
    have er : dot_S5000x128_S128x128_S5000x128_1_0_0_1_n_n.rhsIdx y ((ValueIdx.contrEquiv1 dot_S5000x128_S128x128_S5000x128_1_0_0_1_n_n 128 rfl rfl).symm k) = colB y k := funext fun a => Fin.ext (by
      match a with
      | ⟨0, _⟩ => exact (rhs_0 _ _).trans hk
      | ⟨1, _⟩ => exact rhs_1 _ _)
    rw [el, er]
    rfl
  · exact broadcastTo_apply x2 broadcasts_S1x128_S5000x128 y (biasB y) (fun a => match a with
      | ⟨0, _⟩ => rfl
      | ⟨1, _⟩ => rfl)

/-! ## The blocks the body reads, as entries of the arrays the region finds -/

variable (V : (c : Dev nD) → (b : Ref sig .tc) → Buf (Elt Ideal) ((c : Thread nD τ).loc b))

theorem hz : (![0, 0] : Fin 2 → Nat) = fun _ => 0 := funext fun a => by fin_cases a <;> rfl

/-- Point t's block of the left factor is rows 5000·t … 5000·t + 4999 of the array. -/
theorem blk_left (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v49 : S50000x128.Idx → Elt Ideal .f32) i := by
  have hi : win1_0.index t 0 = t.val ∧ win1_0.index t 1 = 0 := by
    rcases fin_N1 t with rfl | rfl | rfl | rfl | rfl | rfl | rfl | rfl | rfl | rfl <;> decide
  unfold iblk1
  rw [View.read_apply]
  show V c main_v49 _ = V c main_v49 _
  congr 1
  funext a
  apply Fin.ext
  match a with
  | ⟨0, _⟩ => show win1_0.index t 0 * 5000 + 1 * (y 0).val = (i 0).val; rw [hi.1, h0]; omega
  | ⟨1, _⟩ => show win1_0.index t 1 * 128 + 1 * (y 1).val = (i 1).val; rw [hi.2, h1]; omega

/-- The right factor is staged whole at every point. -/
theorem blk_right (c : Dev nD) (t : Fin cfg1.N) (y : S128x128.Idx) :
    (iblk1 V c 1 t : Vec Ideal S128x128 .f32) y = (V c main_arg4 : S128x128.Idx → Elt Ideal .f32) y := by
  have hi : win1_1.index t 0 = 0 ∧ win1_1.index t 1 = 0 := by
    rcases fin_N1 t with rfl | rfl | rfl | rfl | rfl | rfl | rfl | rfl | rfl | rfl <;> decide
  unfold iblk1
  rw [View.read_apply]
  show V c main_arg4 _ = V c main_arg4 _
  congr 1
  funext a
  apply Fin.ext
  match a with
  | ⟨0, _⟩ => show win1_1.index t 0 * 128 + 1 * (y 0).val = (y 0).val; rw [hi.1]; omega
  | ⟨1, _⟩ => show win1_1.index t 1 * 128 + 1 * (y 1).val = (y 1).val; rw [hi.2]; omega

/-- The bias row is staged whole at every point. -/
theorem blk_bias (c : Dev nD) (t : Fin cfg1.N) (y : S1x128.Idx) :
    (iblk1 V c 2 t : Vec Ideal S1x128 .f32) y = (V c main_v51 : S1x128.Idx → Elt Ideal .f32) y := by
  have hi : win1_2.index t 0 = 0 ∧ win1_2.index t 1 = 0 := by
    rcases fin_N1 t with rfl | rfl | rfl | rfl | rfl | rfl | rfl | rfl | rfl | rfl <;> decide
  unfold iblk1
  rw [View.read_apply]
  show V c main_v51 _ = V c main_v51 _
  congr 1
  funext a
  apply Fin.ext
  match a with
  | ⟨0, _⟩ => show win1_2.index t 0 * 1 + 1 * (y 0).val = (y 0).val; rw [hi.1]; omega
  | ⟨1, _⟩ => show win1_2.index t 1 * 128 + 1 * (y 1).val = (y 1).val; rw [hi.2]; omega

/-! ## What a point writes back, and the array after the last point -/

/-- The result window's block index at point t is (t, 0). -/
theorem out_index (t : Fin cfg1.N) : win1_3.index t 0 = t.val ∧ win1_3.index t 1 = 0 := by
  rcases fin_N1 t with rfl | rfl | rfl | rfl | rfl | rfl | rfl | rfl | rfl | rfl <;> decide

/-- Entry j of point t's block against entry i of the array, where i is j moved down 5000·t rows. -/
theorem point_eq (c : Dev nD) (t : Fin cfg1.N) (j : S5000x128.Idx) (i : S50000x128.Idx)
    (e0 : (i 0).val = 5000 * t.val + (j 0).val) (e1 : (i 1).val = (j 1).val) :
    k1_pay1 (F := Ideal) (iblk1 V c 0 t) (iblk1 V c 1 t) (iblk1 V c 2 t) j = layer (V c main_v49) (V c main_arg4) (V c main_v51) i := by
  refine (pay_apply _ _ _ j).trans ?_
  unfold layer
  have hcol : ∀ k : Fin 128, colB j k = colOf i k := fun k => funext fun a => Fin.ext (by
    match a with
    | ⟨0, _⟩ => rfl
    | ⟨1, _⟩ => exact e1.symm)
  have hbias : biasB j = biasOf i := funext fun a => Fin.ext (by
    match a with
    | ⟨0, _⟩ => rfl
    | ⟨1, _⟩ => exact e1.symm)
  refine congrArg₂ (· + ·) (Finset.sum_congr rfl fun k _ => ?_) ((blk_bias V c t (biasB j)).trans (congrArg _ hbias))
  exact congrArg₂ (· * ·) (blk_left V c t (rowB j k) (rowOf i k) e0 rfl) ((blk_right V c t (colB j k)).trans (congrArg _ (hcol k)))

/-- What point t writes back is its block of `layer` of the arrays the region finds. -/
theorem flushed_eq (c : Dev nD) (t : Fin cfg1.N) :
    (dat1 V c).flushed 3 t = ((cfg1.win 3).blk t).view.read (Elt Ideal) (layer (V c main_v49) (V c main_arg4) (V c main_v51)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  show k1_pay1 (F := Ideal) (iblk1 V c 0 t) (iblk1 V c 1 t) (iblk1 V c 2 t) j = layer (V c main_v49) (V c main_arg4) (V c main_v51) (((cfg1.win 3).blk t).view.emb j)
  refine point_eq V c t j _ ?_ ?_
  · show win1_3.index t 0 * 5000 + 1 * (j 0).val = _
    rw [(out_index t).1]; omega
  · show win1_3.index t 1 * 128 + 1 * (j 1).val = _
    rw [(out_index t).2]; omega

/-- An index of the result array lies in point t's block iff each coordinate lies in the block's range. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- Every row of the result lies in the block of the point numbered row / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [mem_blk]
  obtain ⟨q0, q1⟩ := out_index ⟨(i 0).val / 5000, by rw [hN]; omega⟩
  intro a
  match a with
  | ⟨0, _⟩ =>
    show win1_3.index _ 0 * 5000 ≤ (i 0).val ∧ (i 0).val < win1_3.index _ 0 * 5000 + 5000
    rw [q0]; show (i 0).val / 5000 * 5000 ≤ (i 0).val ∧ (i 0).val < (i 0).val / 5000 * 5000 + 5000; omega
  | ⟨1, _⟩ =>
    show win1_3.index _ 1 * 128 ≤ (i 1).val ∧ (i 1).val < win1_3.index _ 1 * 128 + 128
    rw [q1]; omega

/-- THE RESULT ARRAY after the last point: `layer` of the three arrays as the region found them. -/
theorem final (c : Dev nD) : (dat1 V c).arrAt 3 cfg1.N = layer (V c main_v49) (V c main_arg4) (V c main_v51) :=
  (dat1 V c).arrAt_eq_of_cover 3 _ (fun t _ => flushed_eq V c t) cover

end Cert.KernelIdeal.Layer1

end
-- ==== Proof.Layer2.lean ====
/-
  The third linear layer of the kernel, as a function of whole arrays.

  The grid has ten points; point t stages rows 5000·t … 5000·t + 4999 of the left factor A, the whole right factor W
  and the whole bias row b, and writes back the same rows of the result. In the extended reals a change of float format
  is the identity and a product accumulated into zero is the plain sum, so the block's entry (r, j) is
  Σ_k A[5000·t + r, k] · W[k, j] + b[0, j]: every point writes its rows of ONE function of (A, W, b), the blocks tile
  the result's 50000 rows, and the result array ends holding that function.
-/
import proofs.«147254_j48430051230177_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen

/-! ## The layer on whole arrays -/

/-- Entry (row of i, k) of the left factor. -/
abbrev rowOf (i : S50000x64.Idx) (k : Fin 128) : S50000x128.Idx := fun a => match a with
  | ⟨0, _⟩ => ⟨(i 0).val, (i 0).isLt⟩
  | ⟨1, _⟩ => ⟨k.val, k.isLt⟩
/-- Entry (k, column of i) of the right factor. -/
abbrev colOf (i : S50000x64.Idx) (k : Fin 128) : S128x64.Idx := fun a => match a with
  | ⟨0, _⟩ => ⟨k.val, k.isLt⟩
  | ⟨1, _⟩ => ⟨(i 1).val, (i 1).isLt⟩
/-- Entry (0, column of i) of the bias row. -/
abbrev biasOf (i : S50000x64.Idx) : S1x64.Idx := fun a => match a with
  | ⟨0, _⟩ => ⟨0, Nat.one_pos⟩
  | ⟨1, _⟩ => ⟨(i 1).val, (i 1).isLt⟩

/-- A · W + b, the bias row added to every row: entry i is Σ_k A[i₀, k] · W[k, i₁] + b[0, i₁]. -/
def layer (A : (⟨S50000x128, .f32⟩ : BufTy).Contents (Elt Ideal)) (W : (⟨S128x64, .f32⟩ : BufTy).Contents (Elt Ideal))
    (b : (⟨S1x64, .f32⟩ : BufTy).Contents (Elt Ideal)) : (⟨S50000x64, .f32⟩ : BufTy).Contents (Elt Ideal) :=
  fun i => (∑ k : Fin 128, A (rowOf i k) * W (colOf i k)) + b (biasOf i)

/-! ## One block of the body's result, entry by entry -/

abbrev rowB (y : S5000x64.Idx) (k : Fin 128) : S5000x128.Idx := fun a => match a with
  | ⟨0, _⟩ => ⟨(y 0).val, (y 0).isLt⟩
  | ⟨1, _⟩ => ⟨k.val, k.isLt⟩
abbrev colB (y : S5000x64.Idx) (k : Fin 128) : S128x64.Idx := fun a => match a with
  | ⟨0, _⟩ => ⟨k.val, k.isLt⟩
  | ⟨1, _⟩ => ⟨(y 1).val, (y 1).isLt⟩
abbrev biasB (y : S5000x64.Idx) : S1x64.Idx := fun a => match a with
  | ⟨0, _⟩ => ⟨0, Nat.one_pos⟩
  | ⟨1, _⟩ => ⟨(y 1).val, (y 1).isLt⟩

/- The contraction's operand indices, coordinate by coordinate: the left operand is read at (row, k), the right at
   (k, column). -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at entry y of the block: the row of the staged left factor against the column of the
    right factor, summed over the 128 contracted entries, plus the bias row's entry of that column. -/
theorem pay_apply (x0 : Vec Ideal S5000x128 .f32) (x1 : Vec Ideal S128x64 .f32) (x2 : Vec Ideal S1x64 .f32) (y : S5000x64.Idx) :
    k2_pay1 (F := Ideal) x0 x1 x2 y = (∑ k : Fin 128, x0 (rowB y k) * x1 (colB y k)) + x2 (biasB y) := by
  unfold k2_pay1
  simp only [shapeCast_self]
  refine (ValueIdx.addf_apply _ _ y).trans ?_
  congr 1
  · simp only [matmul]
    rw [Ideal.matmul_constant_zero_apply, ← Equiv.sum_comp (ValueIdx.contrEquiv1 dot_S5000x128_S128x64_S5000x64_1_0_0_1_n_n 128 rfl rfl).symm]
    refine Finset.sum_congr rfl fun k _ => ?_
    have hk := ValueIdx.contrEquiv1_symm_val dot_S5000x128_S128x64_S5000x64_1_0_0_1_n_n 128 rfl rfl k
    have el : dot_S5000x128_S128x64_S5000x64_1_0_0_1_n_n.lhsIdx y ((ValueIdx.contrEquiv1 dot_S5000x128_S128x64_S5000x64_1_0_0_1_n_n 128 rfl rfl).symm k) = rowB y k := funext fun a => Fin.ext (by
      match a with
      | ⟨0, _⟩ => exact lhs_0 _ _
      | ⟨1, _⟩ => exact (lhs_1 _ _).trans hk)
    have er : dot_S5000x128_S128x64_S5000x64_1_0_0_1_n_n.rhsIdx y ((ValueIdx.contrEquiv1 dot_S5000x128_S128x64_S5000x64_1_0_0_1_n_n 128 rfl rfl).symm k) = colB y k := funext fun a => Fin.ext (by
      match a with
      | ⟨0, _⟩ => exact (rhs_0 _ _).trans hk
      | ⟨1, _⟩ => exact rhs_1 _ _)
    rw [el, er]
    rfl
  · exact broadcastTo_apply x2 broadcasts_S1x64_S5000x64 y (biasB y) (fun a => match a with
      | ⟨0, _⟩ => rfl
      | ⟨1, _⟩ => rfl)

/-! ## The blocks the body reads, as entries of the arrays the region finds -/

variable (V : (c : Dev nD) → (b : Ref sig .tc) → Buf (Elt Ideal) ((c : Thread nD τ).loc b))

theorem hz : (![0, 0] : Fin 2 → Nat) = fun _ => 0 := funext fun a => by fin_cases a <;> rfl

/-- Point t's block of the left factor is rows 5000·t … 5000·t + 4999 of the array. -/
theorem blk_left (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v69 : S50000x128.Idx → Elt Ideal .f32) i := by
  have hi : win2_0.index t 0 = t.val ∧ win2_0.index t 1 = 0 := by
    rcases fin_N2 t with rfl | rfl | rfl | rfl | rfl | rfl | rfl | rfl | rfl | rfl <;> decide
  unfold iblk2
  rw [View.read_apply]
  show V c main_v69 _ = V c main_v69 _
  congr 1
  funext a
  apply Fin.ext
  match a with
  | ⟨0, _⟩ => show win2_0.index t 0 * 5000 + 1 * (y 0).val = (i 0).val; rw [hi.1, h0]; omega
  | ⟨1, _⟩ => show win2_0.index t 1 * 128 + 1 * (y 1).val = (i 1).val; rw [hi.2, h1]; omega

/-- The right factor is staged whole at every point. -/
theorem blk_right (c : Dev nD) (t : Fin cfg2.N) (y : S128x64.Idx) :
    (iblk2 V c 1 t : Vec Ideal S128x64 .f32) y = (V c main_arg6 : S128x64.Idx → Elt Ideal .f32) y := by
  have hi : win2_1.index t 0 = 0 ∧ win2_1.index t 1 = 0 := by
    rcases fin_N2 t with rfl | rfl | rfl | rfl | rfl | rfl | rfl | rfl | rfl | rfl <;> decide
  unfold iblk2
  rw [View.read_apply]
  show V c main_arg6 _ = V c main_arg6 _
  congr 1
  funext a
  apply Fin.ext
  match a with
  | ⟨0, _⟩ => show win2_1.index t 0 * 128 + 1 * (y 0).val = (y 0).val; rw [hi.1]; omega
  | ⟨1, _⟩ => show win2_1.index t 1 * 64 + 1 * (y 1).val = (y 1).val; rw [hi.2]; omega

/-- The bias row is staged whole at every point. -/
theorem blk_bias (c : Dev nD) (t : Fin cfg2.N) (y : S1x64.Idx) :
    (iblk2 V c 2 t : Vec Ideal S1x64 .f32) y = (V c main_v70 : S1x64.Idx → Elt Ideal .f32) y := by
  have hi : win2_2.index t 0 = 0 ∧ win2_2.index t 1 = 0 := by
    rcases fin_N2 t with rfl | rfl | rfl | rfl | rfl | rfl | rfl | rfl | rfl | rfl <;> decide
  unfold iblk2
  rw [View.read_apply]
  show V c main_v70 _ = V c main_v70 _
  congr 1
  funext a
  apply Fin.ext
  match a with
  | ⟨0, _⟩ => show win2_2.index t 0 * 1 + 1 * (y 0).val = (y 0).val; rw [hi.1]; omega
  | ⟨1, _⟩ => show win2_2.index t 1 * 64 + 1 * (y 1).val = (y 1).val; rw [hi.2]; omega

/-! ## What a point writes back, and the array after the last point -/

/-- The result window's block index at point t is (t, 0). -/
theorem out_index (t : Fin cfg2.N) : win2_3.index t 0 = t.val ∧ win2_3.index t 1 = 0 := by
  rcases fin_N2 t with rfl | rfl | rfl | rfl | rfl | rfl | rfl | rfl | rfl | rfl <;> decide

/-- Entry j of point t's block against entry i of the array, where i is j moved down 5000·t rows. -/
theorem point_eq (c : Dev nD) (t : Fin cfg2.N) (j : S5000x64.Idx) (i : S50000x64.Idx)
    (e0 : (i 0).val = 5000 * t.val + (j 0).val) (e1 : (i 1).val = (j 1).val) :
    k2_pay1 (F := Ideal) (iblk2 V c 0 t) (iblk2 V c 1 t) (iblk2 V c 2 t) j = layer (V c main_v69) (V c main_arg6) (V c main_v70) i := by
  refine (pay_apply _ _ _ j).trans ?_
  unfold layer
  have hcol : ∀ k : Fin 128, colB j k = colOf i k := fun k => funext fun a => Fin.ext (by
    match a with
    | ⟨0, _⟩ => rfl
    | ⟨1, _⟩ => exact e1.symm)
  have hbias : biasB j = biasOf i := funext fun a => Fin.ext (by
    match a with
    | ⟨0, _⟩ => rfl
    | ⟨1, _⟩ => exact e1.symm)
  refine congrArg₂ (· + ·) (Finset.sum_congr rfl fun k _ => ?_) ((blk_bias V c t (biasB j)).trans (congrArg _ hbias))
  exact congrArg₂ (· * ·) (blk_left V c t (rowB j k) (rowOf i k) e0 rfl) ((blk_right V c t (colB j k)).trans (congrArg _ (hcol k)))

/-- What point t writes back is its block of `layer` of the arrays the region finds. -/
theorem flushed_eq (c : Dev nD) (t : Fin cfg2.N) :
    (dat2 V c).flushed 3 t = ((cfg2.win 3).blk t).view.read (Elt Ideal) (layer (V c main_v69) (V c main_arg6) (V c main_v70)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  funext j
  show k2_pay1 (F := Ideal) (iblk2 V c 0 t) (iblk2 V c 1 t) (iblk2 V c 2 t) j = layer (V c main_v69) (V c main_arg6) (V c main_v70) (((cfg2.win 3).blk t).view.emb j)
  refine point_eq V c t j _ ?_ ?_
  · show win2_3.index t 0 * 5000 + 1 * (j 0).val = _
    rw [(out_index t).1]; omega
  · show win2_3.index t 1 * 64 + 1 * (j 1).val = _
    rw [(out_index t).2]; omega

/-- An index of the result array lies in point t's block iff each coordinate lies in the block's range. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v71).slice (win2_3.rect t)).set ↔ _
  rw [View.set_slice_whole, Rect.mem_set_unit]
  exact Iff.rfl

/-- Every row of the result lies in the block of the point numbered row / 5000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_3 _, ?_⟩
  rw [mem_blk]
  obtain ⟨q0, q1⟩ := out_index ⟨(i 0).val / 5000, by rw [hN]; omega⟩
  intro a
  match a with
  | ⟨0, _⟩ =>
    show win2_3.index _ 0 * 5000 ≤ (i 0).val ∧ (i 0).val < win2_3.index _ 0 * 5000 + 5000
    rw [q0]; show (i 0).val / 5000 * 5000 ≤ (i 0).val ∧ (i 0).val < (i 0).val / 5000 * 5000 + 5000; omega
  | ⟨1, _⟩ =>
    show win2_3.index _ 1 * 64 ≤ (i 1).val ∧ (i 1).val < win2_3.index _ 1 * 64 + 64
    rw [q1]; omega

/-- THE RESULT ARRAY after the last point: `layer` of the three arrays as the region found them. -/
theorem final (c : Dev nD) : (dat2 V c).arrAt 3 cfg2.N = layer (V c main_v69) (V c main_arg6) (V c main_v70) :=
  (dat2 V c).arrAt_eq_of_cover 3 _ (fun t _ => flushed_eq V c t) cover

end Cert.KernelIdeal.Layer2

end
-- ==== Proof.KernelMaps.lean ====
/-
  The kernel's three linear maps on whole arrays: each is A · W with a bias row added to every row. The first two
  layers are handed the zero row; the last is handed b_f laid out as a 1 × 64 row.
-/
import proofs.«147254_j48430051230177_1_alg».proof.Proof.Net
import proofs.«147254_j48430051230177_1_alg».proof.Proof.Layer0
import proofs.«147254_j48430051230177_1_alg».proof.Proof.Layer1
import proofs.«147254_j48430051230177_1_alg».proof.Proof.Layer2

noncomputable section

open Idealize.ShloMosaic Idealize.ShloMosaic.TcCoe Idealize.SL.Sem

namespace Cert.KernelIdeal.Maps

open Cert.KernelIdeal Cert.KernelIdeal.Gen

/-- The kernel's first layer: x · W₁ plus the zero row. -/
def K0 (A : (⟨S50000x256, .f32⟩ : BufTy).Contents (Elt Ideal)) (W : (⟨S256x128, .f32⟩ : BufTy).Contents (Elt Ideal)) : (⟨S50000x128, .f32⟩ : BufTy).Contents (Elt Ideal) :=
  Layer0.layer A W (Net.zeroRow (F := Ideal))
/-- The kernel's second layer: h · W₂ plus the zero row. -/
def K1 (A : (⟨S50000x128, .f32⟩ : BufTy).Contents (Elt Ideal)) (W : (⟨S128x128, .f32⟩ : BufTy).Contents (Elt Ideal)) : (⟨S50000x128, .f32⟩ : BufTy).Contents (Elt Ideal) :=
  Layer1.layer A W (Net.zeroRow (F := Ideal))
/-- The kernel's last layer: h · W_f plus b_f as a row. -/
def K2 (A : (⟨S50000x128, .f32⟩ : BufTy).Contents (Elt Ideal)) (W : (⟨S128x64, .f32⟩ : BufTy).Contents (Elt Ideal)) (b : (⟨S64, .f32⟩ : BufTy).Contents (Elt Ideal)) : (⟨S50000x64, .f32⟩ : BufTy).Contents (Elt Ideal) :=
  Layer2.layer A W (Net.biasRow (F := Ideal) b)

end Cert.KernelIdeal.Maps

end
-- ==== Proof.Walk.lean ====
/-
  The kernel's result array, read back through the run's boundaries.

  The run of the kernel's program passes thirteen boundaries: the launch, then for each of the three linear layers a
  stretch of host operations, the layer's entry and the layer's exit. A host stretch writes each of its results as a
  function of buffers the boundary before it holds and leaves every other buffer alone; a layer's exit holds the
  layer's result array (the function of whole arrays its value module proves) and every other buffer as the layer found
  it. Walking from the launch forward, the buffers that are still read later hold, at each boundary, the network's own
  intermediate values: the source and destination vectors, the edge weights, the zero row, the arguments, and the
  activations so far. At the last boundary the result array holds the network at the kernel's three linear maps.
-/
import proofs.«147254_j48430051230177_1_alg».proof.Proof.Gen.KernelIdeal.Frame
import proofs.«147254_j48430051230177_1_alg».proof.Proof.KernelMaps
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Walk

open Cert.KernelIdeal Cert.KernelIdeal.Gen Cert.KernelIdeal.Net Cert.KernelIdeal.Maps

/-! ## The three host stretches, each from an arbitrary valuation of the buffers -/

section Stretches

variable {F : FTy → Type} [FloatOps F] (V : Valuation τ sig (Elt F))

/-! Before the first layer the index vectors, the edge weights and the zero row are computed from the edge list, and
    no argument is written. One statement per buffer that is read later. -/

theorem s0_src : StableHlo.after hostOps0_2 (StableHlo.after hostOps0_1 (StableHlo.after hostOps0 V)) (Proc.devRef .tc main_v3) = src (V (Proc.devRef .tc main_arg1)) := by
  after_results <;> rfl

theorem s0_dst : StableHlo.after hostOps0_2 (StableHlo.after hostOps0_1 (StableHlo.after hostOps0 V)) (Proc.devRef .tc main_v6) = dst (V (Proc.devRef .tc main_arg1)) := by
  after_results <;> rfl

-- the edge weights gather twice from the degree vector, itself a sum over the destinations: a long fold to read back
set_option maxHeartbeats 4000000 in
theorem s0_weight : StableHlo.after hostOps0_2 (StableHlo.after hostOps0_1 (StableHlo.after hostOps0 V)) (Proc.devRef .tc main_v29)
    = edgeWeight (src (V (Proc.devRef .tc main_arg1))) (dst (V (Proc.devRef .tc main_arg1))) := by
  after_results <;> rfl

theorem s0_zeroRow : StableHlo.after hostOps0_2 (StableHlo.after hostOps0_1 (StableHlo.after hostOps0 V)) (Proc.devRef .tc main_v31) = zeroRow := by
  after_results <;> rfl

theorem s0_arg0 : StableHlo.after hostOps0_2 (StableHlo.after hostOps0_1 (StableHlo.after hostOps0 V)) (Proc.devRef .tc main_arg0) = V (Proc.devRef .tc main_arg0) := by
  after_results_simp <;> rfl
theorem s0_arg2 : StableHlo.after hostOps0_2 (StableHlo.after hostOps0_1 (StableHlo.after hostOps0 V)) (Proc.devRef .tc main_arg2) = V (Proc.devRef .tc main_arg2) := by
  after_results_simp <;> rfl
theorem s0_arg3 : StableHlo.after hostOps0_2 (StableHlo.after hostOps0_1 (StableHlo.after hostOps0 V)) (Proc.devRef .tc main_arg3) = V (Proc.devRef .tc main_arg3) := by
  after_results_simp <;> rfl
theorem s0_arg4 : StableHlo.after hostOps0_2 (StableHlo.after hostOps0_1 (StableHlo.after hostOps0 V)) (Proc.devRef .tc main_arg4) = V (Proc.devRef .tc main_arg4) := by
  after_results_simp <;> rfl
theorem s0_arg5 : StableHlo.after hostOps0_2 (StableHlo.after hostOps0_1 (StableHlo.after hostOps0 V)) (Proc.devRef .tc main_arg5) = V (Proc.devRef .tc main_arg5) := by
  after_results_simp <;> rfl
theorem s0_arg6 : StableHlo.after hostOps0_2 (StableHlo.after hostOps0_1 (StableHlo.after hostOps0 V)) (Proc.devRef .tc main_arg6) = V (Proc.devRef .tc main_arg6) := by
  after_results_simp <;> rfl
theorem s0_arg7 : StableHlo.after hostOps0_2 (StableHlo.after hostOps0_1 (StableHlo.after hostOps0 V)) (Proc.devRef .tc main_arg7) = V (Proc.devRef .tc main_arg7) := by
  after_results_simp <;> rfl

/-- The stretch before the first layer, all at once. -/
theorem stretch0 :
    StableHlo.after hostOps0_2 (StableHlo.after hostOps0_1 (StableHlo.after hostOps0 V)) (Proc.devRef .tc main_v3) = src (V (Proc.devRef .tc main_arg1))
    ∧ StableHlo.after hostOps0_2 (StableHlo.after hostOps0_1 (StableHlo.after hostOps0 V)) (Proc.devRef .tc main_v6) = dst (V (Proc.devRef .tc main_arg1))
    ∧ StableHlo.after hostOps0_2 (StableHlo.after hostOps0_1 (StableHlo.after hostOps0 V)) (Proc.devRef .tc main_v29) = edgeWeight (src (V (Proc.devRef .tc main_arg1))) (dst (V (Proc.devRef .tc main_arg1)))
    ∧ StableHlo.after hostOps0_2 (StableHlo.after hostOps0_1 (StableHlo.after hostOps0 V)) (Proc.devRef .tc main_v31) = zeroRow
    ∧ StableHlo.after hostOps0_2 (StableHlo.after hostOps0_1 (StableHlo.after hostOps0 V)) (Proc.devRef .tc main_arg0) = V (Proc.devRef .tc main_arg0)
    ∧ StableHlo.after hostOps0_2 (StableHlo.after hostOps0_1 (StableHlo.after hostOps0 V)) (Proc.devRef .tc main_arg2) = V (Proc.devRef .tc main_arg2)
    ∧ StableHlo.after hostOps0_2 (StableHlo.after hostOps0_1 (StableHlo.after hostOps0 V)) (Proc.devRef .tc main_arg3) = V (Proc.devRef .tc main_arg3)
    ∧ StableHlo.after hostOps0_2 (StableHlo.after hostOps0_1 (StableHlo.after hostOps0 V)) (Proc.devRef .tc main_arg4) = V (Proc.devRef .tc main_arg4)
    ∧ StableHlo.after hostOps0_2 (StableHlo.after hostOps0_1 (StableHlo.after hostOps0 V)) (Proc.devRef .tc main_arg5) = V (Proc.devRef .tc main_arg5)
    ∧ StableHlo.after hostOps0_2 (StableHlo.after hostOps0_1 (StableHlo.after hostOps0 V)) (Proc.devRef .tc main_arg6) = V (Proc.devRef .tc main_arg6)
    ∧ StableHlo.after hostOps0_2 (StableHlo.after hostOps0_1 (StableHlo.after hostOps0 V)) (Proc.devRef .tc main_arg7) = V (Proc.devRef .tc main_arg7) :=
  ⟨s0_src V, s0_dst V, s0_weight V, s0_zeroRow V, s0_arg0 V, s0_arg2 V, s0_arg3 V, s0_arg4 V, s0_arg5 V, s0_arg6 V, s0_arg7 V⟩

/-- Between the first and the second layer: one convolution of the first layer's result, and the zero row again. -/
theorem stretch1 :
    StableHlo.after hostOps1_2 (StableHlo.after hostOps1_1 (StableHlo.after hostOps1 V)) (Proc.devRef .tc main_v49)
        = conv (V (Proc.devRef .tc main_v32)) (V (Proc.devRef .tc main_v3)) (V (Proc.devRef .tc main_v6)) (V (Proc.devRef .tc main_v29)) (V (Proc.devRef .tc main_arg3))
    ∧ StableHlo.after hostOps1_2 (StableHlo.after hostOps1_1 (StableHlo.after hostOps1 V)) (Proc.devRef .tc main_v51) = zeroRow
    ∧ StableHlo.after hostOps1_2 (StableHlo.after hostOps1_1 (StableHlo.after hostOps1 V)) (Proc.devRef .tc main_arg4) = V (Proc.devRef .tc main_arg4)
    ∧ StableHlo.after hostOps1_2 (StableHlo.after hostOps1_1 (StableHlo.after hostOps1 V)) (Proc.devRef .tc main_v3) = V (Proc.devRef .tc main_v3)
    ∧ StableHlo.after hostOps1_2 (StableHlo.after hostOps1_1 (StableHlo.after hostOps1 V)) (Proc.devRef .tc main_v6) = V (Proc.devRef .tc main_v6)
    ∧ StableHlo.after hostOps1_2 (StableHlo.after hostOps1_1 (StableHlo.after hostOps1 V)) (Proc.devRef .tc main_v29) = V (Proc.devRef .tc main_v29)
    ∧ StableHlo.after hostOps1_2 (StableHlo.after hostOps1_1 (StableHlo.after hostOps1 V)) (Proc.devRef .tc main_arg5) = V (Proc.devRef .tc main_arg5)
    ∧ StableHlo.after hostOps1_2 (StableHlo.after hostOps1_1 (StableHlo.after hostOps1 V)) (Proc.devRef .tc main_arg6) = V (Proc.devRef .tc main_arg6)
    ∧ StableHlo.after hostOps1_2 (StableHlo.after hostOps1_1 (StableHlo.after hostOps1 V)) (Proc.devRef .tc main_arg7) = V (Proc.devRef .tc main_arg7) := by
  refine ⟨?_, ?_, ?_, ?_, ?_, ?_, ?_, ?_, ?_⟩
  · after_results_simp <;> rfl
  · after_results_simp <;> rfl
  · after_results_simp <;> rfl
  · after_results_simp <;> rfl
  · after_results_simp <;> rfl
  · after_results_simp <;> rfl
  · after_results_simp <;> rfl
  · after_results_simp <;> rfl
  · after_results_simp <;> rfl

/-- Between the second and the last layer: one convolution of the second layer's result, and b_f laid out as a row. -/
theorem stretch2 :
    StableHlo.after hostOps2_2 (StableHlo.after hostOps2_1 (StableHlo.after hostOps2 V)) (Proc.devRef .tc main_v69)
        = conv (V (Proc.devRef .tc main_v52)) (V (Proc.devRef .tc main_v3)) (V (Proc.devRef .tc main_v6)) (V (Proc.devRef .tc main_v29)) (V (Proc.devRef .tc main_arg5))
    ∧ StableHlo.after hostOps2_2 (StableHlo.after hostOps2_1 (StableHlo.after hostOps2 V)) (Proc.devRef .tc main_v70) = biasRow (V (Proc.devRef .tc main_arg7))
    ∧ StableHlo.after hostOps2_2 (StableHlo.after hostOps2_1 (StableHlo.after hostOps2 V)) (Proc.devRef .tc main_arg6) = V (Proc.devRef .tc main_arg6) := by
  refine ⟨?_, ?_, ?_⟩
  · after_results_simp <;> rfl
  · after_results_simp <;> rfl
  · after_results_simp <;> rfl

end Stretches

/-! ## The boundaries of the run, from the launch forward -/

section Boundaries

variable (m : (ℓ : Loc nD τ sig) → Buf (Elt Ideal) ℓ) (ρ : Dev nD → PrngReg) (c : Dev nD)

/-- At the first layer's entry. -/
theorem atEntry0 :
    W3 m ρ c (Proc.devRef .tc main_v3) = src (m ((c : Thread nD τ).loc main_arg1))
    ∧ W3 m ρ c (Proc.devRef .tc main_v6) = dst (m ((c : Thread nD τ).loc main_arg1))
    ∧ W3 m ρ c (Proc.devRef .tc main_v29) = edgeWeight (src (m ((c : Thread nD τ).loc main_arg1))) (dst (m ((c : Thread nD τ).loc main_arg1)))
    ∧ W3 m ρ c (Proc.devRef .tc main_v31) = zeroRow
    ∧ W3 m ρ c (Proc.devRef .tc main_arg0) = m ((c : Thread nD τ).loc main_arg0)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7) :=
  stretch0 (W0 m ρ c)

/-- At the first layer's exit: its result array holds x · W₁ plus the zero row; the rest is as entered. -/
theorem atExit0 :
    W4 m ρ c (Proc.devRef .tc main_v32) = K0 (m ((c : Thread nD τ).loc main_arg0)) (m ((c : Thread nD τ).loc main_arg2))
    ∧ W4 m ρ c (Proc.devRef .tc main_v3) = src (m ((c : Thread nD τ).loc main_arg1))
    ∧ W4 m ρ c (Proc.devRef .tc main_v6) = dst (m ((c : Thread nD τ).loc main_arg1))
    ∧ W4 m ρ c (Proc.devRef .tc main_v29) = edgeWeight (src (m ((c : Thread nD τ).loc main_arg1))) (dst (m ((c : Thread nD τ).loc main_arg1)))
    ∧ W4 m ρ c (Proc.devRef .tc main_arg3) = m ((c : Thread nD τ).loc main_arg3)
    ∧ W4 m ρ c (Proc.devRef .tc main_arg4) = m ((c : Thread nD τ).loc main_arg4)
    ∧ W4 m ρ c (Proc.devRef .tc main_arg5) = m ((c : Thread nD τ).loc main_arg5)
    ∧ W4 m ρ c (Proc.devRef .tc main_arg6) = m ((c : Thread nD τ).loc main_arg6)
    ∧ W4 m ρ c (Proc.devRef .tc main_arg7) = m ((c : Thread nD τ).loc main_arg7) := by
  obtain ⟨h3, h6, h29, h31, a0, a2, a3, a4, a5, a6, a7⟩ := atEntry0 m ρ c
  refine ⟨?_, (W4_of_ne m ρ c main_v3 (by decide)).trans h3, (W4_of_ne m ρ c main_v6 (by decide)).trans h6,
    (W4_of_ne m ρ c main_v29 (by decide)).trans h29, (W4_of_ne m ρ c main_arg3 (by decide)).trans a3,
    (W4_of_ne m ρ c main_arg4 (by decide)).trans a4, (W4_of_ne m ρ c main_arg5 (by decide)).trans a5,
    (W4_of_ne m ρ c main_arg6 (by decide)).trans a6, (W4_of_ne m ρ c main_arg7 (by decide)).trans a7⟩
  refine (W4_arr m ρ c 3).trans ((Layer0.final (V3 m ρ) c).trans ?_)
  show Layer0.layer (W3 m ρ c (Proc.devRef .tc main_arg0)) (W3 m ρ c (Proc.devRef .tc main_arg2)) (W3 m ρ c (Proc.devRef .tc main_v31)) = _
  rw [a0, a2, h31]
  rfl

/-- At the second layer's entry. -/
theorem atEntry1 :
    W7 m ρ c (Proc.devRef .tc main_v49)
        = conv (K0 (m ((c : Thread nD τ).loc main_arg0)) (m ((c : Thread nD τ).loc main_arg2))) (src (m ((c : Thread nD τ).loc main_arg1))) (dst (m ((c : Thread nD τ).loc main_arg1)))
            (edgeWeight (src (m ((c : Thread nD τ).loc main_arg1))) (dst (m ((c : Thread nD τ).loc main_arg1)))) (m ((c : Thread nD τ).loc main_arg3))
    ∧ W7 m ρ c (Proc.devRef .tc main_v51) = zeroRow
    ∧ W7 m ρ c (Proc.devRef .tc main_arg4) = m ((c : Thread nD τ).loc main_arg4)
    ∧ W7 m ρ c (Proc.devRef .tc main_v3) = src (m ((c : Thread nD τ).loc main_arg1))
    ∧ W7 m ρ c (Proc.devRef .tc main_v6) = dst (m ((c : Thread nD τ).loc main_arg1))
    ∧ W7 m ρ c (Proc.devRef .tc main_v29) = edgeWeight (src (m ((c : Thread nD τ).loc main_arg1))) (dst (m ((c : Thread nD τ).loc main_arg1)))
    ∧ W7 m ρ c (Proc.devRef .tc main_arg5) = m ((c : Thread nD τ).loc main_arg5)
    ∧ W7 m ρ c (Proc.devRef .tc main_arg6) = m ((c : Thread nD τ).loc main_arg6)
    ∧ W7 m ρ c (Proc.devRef .tc main_arg7) = m ((c : Thread nD τ).loc main_arg7) := by
  obtain ⟨h32, h3, h6, h29, a3, a4, a5, a6, a7⟩ := atExit0 m ρ c
  obtain ⟨s49, s51, sa4, s3, s6, s29, sa5, sa6, sa7⟩ := stretch1 (W4 m ρ c)
  exact ⟨s49.trans (by rw [h32, h3, h6, h29, a3]), s51, sa4.trans a4, s3.trans h3, s6.trans h6, s29.trans h29,
    sa5.trans a5, sa6.trans a6, sa7.trans a7⟩

/-- At the second layer's exit. -/
theorem atExit1 :
    W8 m ρ c (Proc.devRef .tc main_v52)
        = K1 (conv (K0 (m ((c : Thread nD τ).loc main_arg0)) (m ((c : Thread nD τ).loc main_arg2))) (src (m ((c : Thread nD τ).loc main_arg1))) (dst (m ((c : Thread nD τ).loc main_arg1)))
            (edgeWeight (src (m ((c : Thread nD τ).loc main_arg1))) (dst (m ((c : Thread nD τ).loc main_arg1)))) (m ((c : Thread nD τ).loc main_arg3))) (m ((c : Thread nD τ).loc main_arg4))
    ∧ W8 m ρ c (Proc.devRef .tc main_v3) = src (m ((c : Thread nD τ).loc main_arg1))
    ∧ W8 m ρ c (Proc.devRef .tc main_v6) = dst (m ((c : Thread nD τ).loc main_arg1))
    ∧ W8 m ρ c (Proc.devRef .tc main_v29) = edgeWeight (src (m ((c : Thread nD τ).loc main_arg1))) (dst (m ((c : Thread nD τ).loc main_arg1)))
    ∧ W8 m ρ c (Proc.devRef .tc main_arg5) = m ((c : Thread nD τ).loc main_arg5)
    ∧ W8 m ρ c (Proc.devRef .tc main_arg6) = m ((c : Thread nD τ).loc main_arg6)
    ∧ W8 m ρ c (Proc.devRef .tc main_arg7) = m ((c : Thread nD τ).loc main_arg7) := by
  obtain ⟨h49, h51, a4, h3, h6, h29, a5, a6, a7⟩ := atEntry1 m ρ c
  refine ⟨?_, (W8_of_ne m ρ c main_v3 (by decide)).trans h3, (W8_of_ne m ρ c main_v6 (by decide)).trans h6,
    (W8_of_ne m ρ c main_v29 (by decide)).trans h29, (W8_of_ne m ρ c main_arg5 (by decide)).trans a5,
    (W8_of_ne m ρ c main_arg6 (by decide)).trans a6, (W8_of_ne m ρ c main_arg7 (by decide)).trans a7⟩
  refine (W8_arr m ρ c 3).trans ((Layer1.final (V7 m ρ) c).trans ?_)
  show Layer1.layer (W7 m ρ c (Proc.devRef .tc main_v49)) (W7 m ρ c (Proc.devRef .tc main_arg4)) (W7 m ρ c (Proc.devRef .tc main_v51)) = _
  rw [h49, a4, h51]
  rfl

/-- At the last layer's entry. -/
theorem atEntry2 :
    W11 m ρ c (Proc.devRef .tc main_v69)
        = conv (K1 (conv (K0 (m ((c : Thread nD τ).loc main_arg0)) (m ((c : Thread nD τ).loc main_arg2))) (src (m ((c : Thread nD τ).loc main_arg1))) (dst (m ((c : Thread nD τ).loc main_arg1)))
            (edgeWeight (src (m ((c : Thread nD τ).loc main_arg1))) (dst (m ((c : Thread nD τ).loc main_arg1)))) (m ((c : Thread nD τ).loc main_arg3))) (m ((c : Thread nD τ).loc main_arg4)))
            (src (m ((c : Thread nD τ).loc main_arg1))) (dst (m ((c : Thread nD τ).loc main_arg1)))
            (edgeWeight (src (m ((c : Thread nD τ).loc main_arg1))) (dst (m ((c : Thread nD τ).loc main_arg1)))) (m ((c : Thread nD τ).loc main_arg5))
    ∧ W11 m ρ c (Proc.devRef .tc main_v70) = biasRow (m ((c : Thread nD τ).loc main_arg7))
    ∧ W11 m ρ c (Proc.devRef .tc main_arg6) = m ((c : Thread nD τ).loc main_arg6) := by
  obtain ⟨h52, h3, h6, h29, a5, a6, a7⟩ := atExit1 m ρ c
  obtain ⟨s69, s70, sa6⟩ := stretch2 (W8 m ρ c)
  exact ⟨s69.trans (by rw [h52, h3, h6, h29, a5]), s70.trans (by rw [a7]), sa6.trans a6⟩

/-- AT THE RETURN: the result array holds the network at the kernel's three linear maps. -/
theorem result_eq :
    W12 m ρ c (Proc.devRef .tc main_v71)
      = net K0 K1 K2 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  obtain ⟨h69, h70, a6⟩ := atEntry2 m ρ c
  refine (W12_arr m ρ c 3).trans ((Layer2.final (V11 m ρ) c).trans ?_)
  show Layer2.layer (W11 m ρ c (Proc.devRef .tc main_v69)) (W11 m ρ c (Proc.devRef .tc main_arg6)) (W11 m ρ c (Proc.devRef .tc main_v70)) = _
  rw [h69, a6, h70]
  rfl

end Boundaries

end Cert.KernelIdeal.Walk

end
-- ==== Proof.RefNet.lean ====
/-
  The reference's result is the network at the host's three linear maps: two plain matrix products and a matrix
  product with the bias row added to every row. The reference's run states its result as one composed term of the
  arguments; read from the outside in, that term is the network's own tree with these three maps at its three linear
  sites, so the equation holds by unfolding both sides.
-/
import proofs.«147254_j48430051230177_1_alg».proof.Proof.RefRun
import proofs.«147254_j48430051230177_1_alg».proof.Proof.Net

noncomputable section

open Idealize.ShloMosaic Idealize.ShloMosaic.TcCoe Idealize.SL.Sem

namespace Cert.ReferenceIdeal.RefNet

open Cert.ReferenceIdeal Cert.ReferenceIdeal.Gen Cert.ReferenceIdeal.RunCopy

variable {F : FTy → Type} [FloatOps F]

/-- x · W₁ on the host. -/
def L0 (A : (⟨S50000x256, .f32⟩ : BufTy).Contents (Elt F)) (W : (⟨S256x128, .f32⟩ : BufTy).Contents (Elt F)) : (⟨S50000x128, .f32⟩ : BufTy).Contents (Elt F) :=
  Host.dotGeneral dot_S50000x256_S256x128_S50000x128_1_0_0_1_n_n none A W

/-- h · W₂ on the host. -/
def L1 (A : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none A W

/-- h · W_f + b_f on the host, the bias added to every row. -/
def L2 (A : (⟨S50000x128, .f32⟩ : BufTy).Contents (Elt F)) (W : (⟨S128x64, .f32⟩ : BufTy).Contents (Elt F)) (b : (⟨S64, .f32⟩ : BufTy).Contents (Elt F)) : (⟨S50000x64, .f32⟩ : BufTy).Contents (Elt F) :=
  addf (Host.dotGeneral dot_S50000x128_S128x64_S50000x64_1_0_0_1_n_n none A W) (broadcastInDim S50000x64 ![0, 1] bcast_S1x64_S50000x64_0_1 (broadcastInDim S1x64 ![1] bcast_S64_S1x64_1 b))

set_option maxRecDepth 8192 in
/-- The reference's composed result term is the network at the host's three maps. -/
theorem res_eq_net (m : (ℓ : Loc nD τ sig) → Buf (Elt F) ℓ) (c : Dev nD) :
    res_main_v69 (F := F) m c = Cert.KernelIdeal.Net.net (F := F) L0 L1 L2
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_main_v69 Cert.KernelIdeal.Net.net Cert.KernelIdeal.Net.conv Cert.KernelIdeal.Net.edgeWeight Cert.KernelIdeal.Net.invSqrtDegree Cert.KernelIdeal.Net.degree Cert.KernelIdeal.Net.wrap Cert.KernelIdeal.Net.src Cert.KernelIdeal.Net.dst L0 L1 L2
  rfl

end Cert.ReferenceIdeal.RefNet

end
-- ==== Proof.Maps.lean ====
/-
  The kernel's three linear maps are the host's.

  In the extended reals the host's matrix product at entry i is the plain sum Σ_k A[i₀, k] · W[k, i₁], the same sum the
  kernel's row blocks add up to. The kernel adds a bias row to every row of each product: for the first two layers that
  row is the zero row, and s + 0 = s for every extended real s, infinite ones included, so nothing is asked of the
  inputs; for the last layer it is b_f laid out as a 1 × 64 row, whose entry (0, j) is b_f[j], the entry the host's
  broadcast of b_f along the rows puts at (i₀, j).
-/
import proofs.«147254_j48430051230177_1_alg».proof.Proof.RefNet
import proofs.«147254_j48430051230177_1_alg».proof.Proof.KernelMaps
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

/-! ## The host's three products, entry by entry -/

namespace Cert.ReferenceIdeal.Dot0

open Cert.ReferenceIdeal Cert.ReferenceIdeal.Gen

theorem lhs_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhs_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem rhs_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem rhs_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- x · W₁ at entry i: row i₀ of x against column i₁ of W₁, summed over the 256 contracted entries. -/
theorem dot_apply (A : (⟨S50000x256, .f32⟩ : BufTy).Contents (Elt Ideal)) (W : (⟨S256x128, .f32⟩ : BufTy).Contents (Elt Ideal)) (i : S50000x128.Idx) :
    Host.dotGeneral (F := Ideal) (φ₁ := .f32) (φ₂ := .f32) dot_S50000x256_S256x128_S50000x128_1_0_0_1_n_n none A W i
      = ∑ k : Fin 256, A (Cert.KernelIdeal.Layer0.rowOf i k) * W (Cert.KernelIdeal.Layer0.colOf i k) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = Cert.KernelIdeal.Layer0.rowOf i k := funext fun a => Fin.ext (by
    match a with
    | ⟨0, _⟩ => exact lhs_0 _ _
    | ⟨1, _⟩ => exact (lhs_1 _ _).trans hk)
  have er : dot_S50000x256_S256x128_S50000x128_1_0_0_1_n_n.rhsIdx i ((ValueIdx.contrEquiv1 dot_S50000x256_S256x128_S50000x128_1_0_0_1_n_n 256 rfl rfl).symm k) = Cert.KernelIdeal.Layer0.colOf i k := funext fun a => Fin.ext (by
    match a with
    | ⟨0, _⟩ => exact (rhs_0 _ _).trans hk
    | ⟨1, _⟩ => exact rhs_1 _ _)
  rw [el, er]

end Cert.ReferenceIdeal.Dot0

namespace Cert.ReferenceIdeal.Dot1

open Cert.ReferenceIdeal Cert.ReferenceIdeal.Gen

theorem lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- h · W₂ at entry i: row i₀ of h against column i₁ of W₂, summed over the 128 contracted entries. -/
theorem dot_apply (A : (⟨S50000x128, .f32⟩ : BufTy).Contents (Elt Ideal)) (W : (⟨S128x128, .f32⟩ : BufTy).Contents (Elt Ideal)) (i : S50000x128.Idx) :
    Host.dotGeneral (F := Ideal) (φ₁ := .f32) (φ₂ := .f32) dot_S50000x128_S128x128_S50000x128_1_0_0_1_n_n none A W i
      = ∑ k : Fin 128, A (Cert.KernelIdeal.Layer1.rowOf i k) * W (Cert.KernelIdeal.Layer1.colOf i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = Cert.KernelIdeal.Layer1.rowOf i k := funext fun a => Fin.ext (by
    match a with
    | ⟨0, _⟩ => exact lhs_0 _ _
    | ⟨1, _⟩ => exact (lhs_1 _ _).trans hk)
  have er : dot_S50000x128_S128x128_S50000x128_1_0_0_1_n_n.rhsIdx i ((ValueIdx.contrEquiv1 dot_S50000x128_S128x128_S50000x128_1_0_0_1_n_n 128 rfl rfl).symm k) = Cert.KernelIdeal.Layer1.colOf i k := funext fun a => Fin.ext (by
    match a with
    | ⟨0, _⟩ => exact (rhs_0 _ _).trans hk
    | ⟨1, _⟩ => exact rhs_1 _ _)
  rw [el, er]

end Cert.ReferenceIdeal.Dot1

namespace Cert.ReferenceIdeal.Dot2

open Cert.ReferenceIdeal Cert.ReferenceIdeal.Gen

theorem lhs_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- h · W_f at entry i: row i₀ of h against column i₁ of W_f, summed over the 128 contracted entries. -/
theorem dot_apply (A : (⟨S50000x128, .f32⟩ : BufTy).Contents (Elt Ideal)) (W : (⟨S128x64, .f32⟩ : BufTy).Contents (Elt Ideal)) (i : S50000x64.Idx) :
    Host.dotGeneral (F := Ideal) (φ₁ := .f32) (φ₂ := .f32) dot_S50000x128_S128x64_S50000x64_1_0_0_1_n_n none A W i
      = ∑ k : Fin 128, A (Cert.KernelIdeal.Layer2.rowOf i k) * W (Cert.KernelIdeal.Layer2.colOf i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = Cert.KernelIdeal.Layer2.rowOf i k := funext fun a => Fin.ext (by
    match a with
    | ⟨0, _⟩ => exact lhs_0 _ _
    | ⟨1, _⟩ => exact (lhs_1 _ _).trans hk)
  have er : dot_S50000x128_S128x64_S50000x64_1_0_0_1_n_n.rhsIdx i ((ValueIdx.contrEquiv1 dot_S50000x128_S128x64_S50000x64_1_0_0_1_n_n 128 rfl rfl).symm k) = Cert.KernelIdeal.Layer2.colOf i k := funext fun a => Fin.ext (by
    match a with
    | ⟨0, _⟩ => exact (rhs_0 _ _).trans hk
    | ⟨1, _⟩ => exact rhs_1 _ _)
  rw [el, er]

end Cert.ReferenceIdeal.Dot2

/-! ## The kernel's maps, and that they are the host's -/

namespace Cert.KernelIdeal.Maps

open Cert.KernelIdeal Cert.KernelIdeal.Gen

/-- Every entry of the zero row is 0. -/
theorem zeroRow_apply (y : S1x128.Idx) : Net.zeroRow (F := Ideal) y = 0 := by
  unfold Net.zeroRow shapeCast broadcastInDim
  exact Ideal.ofBits_zero_f32

theorem K0_eq : K0 = Cert.ReferenceIdeal.RefNet.L0 (F := Ideal) := by
  funext A W i
  unfold K0 Layer0.layer Cert.ReferenceIdeal.RefNet.L0
  rw [zeroRow_apply, add_zero]
  exact (Cert.ReferenceIdeal.Dot0.dot_apply A W i).symm

theorem K1_eq : K1 = Cert.ReferenceIdeal.RefNet.L1 (F := Ideal) := by
  funext A W i
  unfold K1 Layer1.layer Cert.ReferenceIdeal.RefNet.L1
  rw [zeroRow_apply, add_zero]
  exact (Cert.ReferenceIdeal.Dot1.dot_apply A W i).symm

/-- Entry j of b_f, as an index of the rank-1 array. -/
abbrev colIdx (i : S50000x64.Idx) : S64.Idx := fun a => match a with
  | ⟨0, _⟩ => ⟨(i 1).val, (i 1).isLt⟩

theorem K2_eq : K2 = Cert.ReferenceIdeal.RefNet.L2 (F := Ideal) := by
  funext A W b i
  unfold K2 Layer2.layer Cert.ReferenceIdeal.RefNet.L2
  refine Eq.trans ?_ (ValueIdx.addf_apply _ _ i).symm
  refine congrArg₂ (· + ·) (Cert.ReferenceIdeal.Dot2.dot_apply A W i).symm ?_
  -- both sides are entry i₁ of b_f
  have hk : shapeCast S1x64 b shapeCasts_S64_S1x64 (Layer2.biasOf i) = b (colIdx i) :=
    shapeCast_apply b shapeCasts_S64_S1x64 (Layer2.biasOf i) (colIdx i) (by
      rw [Shape.rowMajor_val_one, Shape.rowMajor_val_two]
      show (i 1).val = 0 * 64 + (i 1).val
      omega)
  have hh : broadcastInDim Cert.ReferenceIdeal.S50000x64 ![0, 1] Cert.ReferenceIdeal.Gen.bcast_S1x64_S50000x64_0_1
        (broadcastInDim Cert.ReferenceIdeal.S1x64 ![1] Cert.ReferenceIdeal.Gen.bcast_S64_S1x64_1 b) i = b (colIdx i) :=
    (broadcastInDim_apply _ Cert.ReferenceIdeal.Gen.bcast_S1x64_S50000x64_0_1 _ i (Layer2.biasOf i) (fun a => match a with
      | ⟨0, _⟩ => rfl
      | ⟨1, _⟩ => rfl)).trans
    (broadcastInDim_apply _ Cert.ReferenceIdeal.Gen.bcast_S64_S1x64_1 b (Layer2.biasOf i) (colIdx i) (fun a => match a with
      | ⟨0, _⟩ => rfl))
  exact (show Net.biasRow (F := Ideal) b (Layer2.biasOf i) = b (colIdx i) from hk).trans hh.symm

end Cert.KernelIdeal.Maps

end
-- ==== Proof.lean ====
/-
  A three-layer graph convolution network: the kernel computes its three per-node linear maps in row-blocked matrix
  kernels (operands narrowed to a 16-bit float format, products accumulated from zero, a bias row added) and everything
  else — degrees, edge weights, gathering along edges and summing into destination nodes, the biases of the first two
  layers, the cut-off at zero — with the same host operations, in the same order, as the reference, which computes the
  three linear maps as plain matrix products.

  Over the extended reals a change of float format is the identity and a product accumulated from zero is the plain
  sum, so each row-blocked kernel writes, block by block, the rows of A · W + (bias row), and since the ten blocks tile
  the 50000 rows its result array is that function of whole arrays. The first two kernels are handed the zero row, and
  s + 0 = s for every extended real; the last is handed b_f as a row, which puts b_f[j] at every (i, j) as the
  reference's broadcast does. Both programs are therefore ONE network evaluated at linear maps that agree entry by
  entry, and no finiteness of the inputs is used.

  The frames of the kernel and its idealization are the generated ones; the reference's frame is its run with the
  result dropped; the idealization rewrote nothing, so it is preserved trivially.
-/
import proofs.«147254_j48430051230177_1_alg».proof.Defs
import proofs.«147254_j48430051230177_1_alg».proof.Proof.Gen.Kernel
import proofs.«147254_j48430051230177_1_alg».proof.Proof.Gen.Kernel.Frame
import proofs.«147254_j48430051230177_1_alg».proof.Proof.Gen.KernelIdeal
import proofs.«147254_j48430051230177_1_alg».proof.Proof.Gen.KernelIdeal.Frame
import proofs.«147254_j48430051230177_1_alg».proof.Proof.Gen.ReferenceIdeal
import proofs.«147254_j48430051230177_1_alg».proof.Proof.Gen.Pre_finite_inputs
import proofs.«147254_j48430051230177_1_alg».proof.Proof.KernelRun
import proofs.«147254_j48430051230177_1_alg».proof.Proof.Walk
import proofs.«147254_j48430051230177_1_alg».proof.Proof.Maps
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- The ideal pass rewrote no operation. -/
theorem preserves : Cert.preserves_Kernel_KernelIdeal := trivial

/-- Both results are the network: the kernel's at its row-blocked maps, the reference's at the host's products, and
    the maps are equal. -/
theorem algebraic : Cert.algebraic_KernelIdeal_ReferenceIdeal := by
  intro m ρ m' ρ' _ hagree
  refine ⟨fun c => Cert.KernelIdeal.Gen.W12 m ρ c (Proc.devRef .tc Cert.KernelIdeal.main_v71),
    Cert.KernelIdeal.Gen.run_out (F := Ideal) m ρ, ?_⟩
  refine (θ_run Cert.ReferenceIdeal.defs _ _).mono (fun _ h c => ⟨(h c).1.trans ?_, (h c).2⟩)
    (Cert.ReferenceIdeal.RunCopy.run (F := Ideal) m' ρ')
  obtain ⟨e0, e1, e2, e3, e4, e5, e6, e7⟩ := hagree c
  show Cert.ReferenceIdeal.RunCopy.res_main_v69 m' c = Cert.KernelIdeal.Gen.W12 m ρ c (Proc.devRef .tc Cert.KernelIdeal.main_v71)
  rw [Cert.ReferenceIdeal.RefNet.res_eq_net, Cert.KernelIdeal.Walk.result_eq, e0, e1, e2, e3, e4, e5, e6, e7,
    Cert.KernelIdeal.Maps.K0_eq, Cert.KernelIdeal.Maps.K1_eq, Cert.KernelIdeal.Maps.K2_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
